-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192 : Shape := ⟨2, ![4, 8192]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : FVec F S4x8192x3 .f32) (main_arg1 : FVec F S4x8192x3 .f32) (main_arg2 : FVec F S4x8192 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  main_v13
-- ==== Kernel.lean ====
abbrev S4x8192x3 : Shape := ⟨3, ![4, 8192, 3]⟩
abbrev S4x8192 : Shape := ⟨2, ![4, 8192]⟩
abbrev S4x8192x1 : Shape := ⟨3, ![4, 8192, 1]⟩
abbrev S1x512x3 : Shape := ⟨3, ![1, 512, 3]⟩
abbrev S1x1024x3 : Shape := ⟨3, ![1, 1024, 3]⟩
abbrev S1x512x1 : Shape := ⟨3, ![1, 512, 1]⟩
abbrev S512x1 : Shape := ⟨2, ![512, 1]⟩
abbrev S512x3 : Shape := ⟨2, ![512, 3]⟩
abbrev S1024x3 : Shape := ⟨2, ![1024, 3]⟩
abbrev S512 : Shape := ⟨1, ![512]⟩
abbrev S3x1024 : Shape := ⟨2, ![3, 1024]⟩
abbrev S1024 : Shape := ⟨1, ![1024]⟩
abbrev S1x1024 : Shape := ⟨2, ![1, 1024]⟩
abbrev S512x1024 : Shape := ⟨2, ![512, 1024]⟩
abbrev S_ : Shape := ⟨0, ![]⟩

abbrev nBuf : Space → Nat
  | .hbm => 30
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192x1, .f32⟩
  | .hbm, ⟨4, _⟩ => ⟨S4x8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x1024x3, .f32⟩
  | .local _ .vmem, ⟨3, _⟩ => ⟨S1x1024x3, .f32⟩
  | .local _ .vmem, ⟨4, _⟩ => ⟨S1x512x1, .f32⟩
  | .local _ .vmem, ⟨5, _⟩ => ⟨S1x512x1, .f32⟩
  | .local _ .vmem, ⟨6, _⟩ => ⟨S1x512x3, .f32⟩
  | .local _ .vmem, ⟨7, _⟩ => ⟨S1x512x3, .f32⟩
  | .local _ .vmem, ⟨8, _⟩ => ⟨S1x1024x3, .f32⟩
  | .local _ .vmem, ⟨9, _⟩ => ⟨S1x1024x3, .f32⟩
  | .local _ .vmem, ⟨10, _⟩ => ⟨S1x512x1, .f32⟩
  | .local _ .vmem, ⟨11, _⟩ => ⟨S1x512x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_cst_4 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_cst_6 : Ref sig .tc := ⟨.hbm, 23, rfl⟩
abbrev main_v10 : Ref sig .tc := ⟨.hbm, 24, rfl⟩
abbrev main_cst_7 : Ref sig .tc := ⟨.hbm, 25, rfl⟩
abbrev main_v11 : Ref sig .tc := ⟨.hbm, 26, rfl⟩
abbrev main_cst_8 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 16, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S512x3_S512 : S512x3.Reduces [1] S512
  shapeCasts_S512_S512x1 : S512.ShapeCasts S512x1
  transposes_S1024x3_p1_0_S3x1024 : S1024x3.Transposes [1, 0] S3x1024
  reduces_S3x1024_S1024 : S3x1024.Reduces [0] S1024
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  reducesTo_S4x8192x1_S_d0_1_2 : S4x8192x1.ReducesTo [0, 1, 2] S_
  h_S_ : 0 < S_.numel
  reducesTo_S4x8192_S_d0_1 : S4x8192.ReducesTo [0, 1] S_
  dot_S512x3_S3x1024_S512x1024_1_0_0_1_n_n_wf : DotDims.WF S512x3 S3x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x8192x1.size a
  hwx0_2 : ∀ i : grid0.Coords, EltTy.bits .f32 = 32 ∨ (Rect.block (s := S4x8192x1) S1x512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x3.size a ≤ S4x8192x3.size a
  hwx1_0 : ∀ i : grid1.Coords, EltTy.bits .f32 = 32 ∨ (Rect.block (s := S4x8192x3) S1x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S4x8192x3.size a
  hwx1_1 : ∀ i : grid1.Coords, EltTy.bits .f32 = 32 ∨ (Rect.block (s := S4x8192x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S4x8192x1.size a
  hwx1_2 : ∀ i : grid1.Coords, EltTy.bits .f32 = 32 ∨ (Rect.block (s := S4x8192x1) S1x512x1.size (cc1_transform_2 i) (hinb1_2 i)).WholeWords (EltTy.packing .f32)

variable [Facts₀]

def dot_S512x3_S3x1024_S512x1024_1_0_0_1_n_n : DotDims S512x3 S3x1024 S512x1024 where
  lhsContracting := [1]
  rhsContracting := [0]
  lhsNonContracting := [0]
  rhsNonContracting := [1]
  lhsBatch := []
  rhsBatch := []
  wf := dot_S512x3_S3x1024_S512x1024_1_0_0_1_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x8192x3 : Shape := ⟨3, ![4, 8192, 3]⟩
abbrev S4x8192 : Shape := ⟨2, ![4, 8192]⟩
abbrev S_ : Shape := ⟨0, ![]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_cst_8 : Ref sig .tc := ⟨.hbm, 32, rfl⟩
abbrev main_v20 : Ref sig .tc := ⟨.hbm, 33, rfl⟩
abbrev main_v21 : Ref sig .tc := ⟨.hbm, 34, rfl⟩
abbrev main_cst_9 : Ref sig .tc := ⟨.hbm, 35, rfl⟩
abbrev main_cst_10 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_cst_11 : Ref sig .tc := ⟨.hbm, 42, rfl⟩
abbrev main_v24 : Ref sig .tc := ⟨.hbm, 43, rfl⟩
abbrev main_cst_12 : Ref sig .tc := ⟨.hbm, 44, rfl⟩
abbrev main_v25 : Ref sig .tc := ⟨.hbm, 45, rfl⟩
abbrev main_cst_13 : Ref sig .tc := ⟨.hbm, 46, rfl⟩
abbrev main_v26 : Ref sig .tc := ⟨.hbm, 47, rfl⟩
abbrev main_cst_14 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics both programs compute, stated once over the extended reals.

  For two clouds of 8192 points in dimension 3, in 4 batches, the squared distance of point n of x to point m of y is
  written the way both programs write it, |x_n|² + |y_m|² − 2·⟨x_n, y_m⟩, clamped below at 0; every point of x takes
  the infimum of that over all points of y; the loss adds the two directions' means, clamps the sum into [0, 10⁶], and adds
  a tenth of the mean absolute density.

  The laws used between the two programs:
    * the clamped distance is symmetric under exchanging the clouds together with the indices (addition and multiplication
      of extended reals commute; nothing else is needed, so no finiteness);
    * an infimum over 8192 indices is the infimum, over the 8 consecutive tiles of 1024, of the tiles' infima, taken one
      tile after the other starting from ⊤;
    * a sum over the index set [4, 8192, 1] is the sum over [4, 8192].
-/
import Idealize.ShloMosaic.PureOps.Ideal.Laws
import Idealize.ShloMosaic.Lib.ValueIdx

noncomputable section

namespace Cert.Spec

open Idealize.ShloMosaic Idealize.ShloMosaic.ValueIdx

/-- The clouds' shape, the per-point shape and the per-point column shape. -/
abbrev Pts : Shape := ⟨3, ![4, 8192, 3]⟩
abbrev Rows : Shape := ⟨2, ![4, 8192]⟩
abbrev Col : Shape := ⟨3, ![4, 8192, 1]⟩

/-- The float words both programs carry, at their exact values' names. -/
abbrev zero : EReal := Ideal.ofBits .f32 0x00000000#32
abbrev two : EReal := Ideal.ofBits .f32 0x40000000#32
abbrev count : EReal := Ideal.ofBits .f32 0x47000000#32
abbrev cap : EReal := Ideal.ofBits .f32 0x49742400#32
abbrev one : EReal := Ideal.ofBits .f32 0x3F800000#32
abbrev tenth : EReal := Ideal.ofBits .f32 0x3DCCCCCD#32

theorem zero_eq : zero = 0 := Ideal.ofBits_zero_f32
theorem inf_word : Ideal.ofBits .f32 0x7F800000#32 = (⊤ : EReal) := by simp [Ideal.ofBits, Ideal.ieee]

/-- |x_n|²: the sum of the three squared coordinates. -/
def sqn (x : Pts.Idx → EReal) (b : Fin 4) (n : Fin 8192) : EReal := ∑ d : Fin 3, x (ix3 b n d) * x (ix3 b n d)
/-- ⟨x_n, y_m⟩. -/
def dot3 (x y : Pts.Idx → EReal) (b : Fin 4) (n m : Fin 8192) : EReal := ∑ d : Fin 3, x (ix3 b n d) * y (ix3 b m d)
/-- The clamped squared distance, as both programs spell it. -/
def dist (x y : Pts.Idx → EReal) (b : Fin 4) (n m : Fin 8192) : EReal :=
  max ((sqn x b n + sqn y b m) - two * dot3 x y b n m) zero

/-- Exchanging the clouds and the two indices changes nothing. -/
theorem dist_swap (x y : Pts.Idx → EReal) (b : Fin 4) (n m : Fin 8192) : dist x y b n m = dist y x b m n := by
  unfold dist dot3
  rw [add_comm (sqn x b n) (sqn y b m)]
  congr 3
  exact Finset.sum_congr rfl fun d _ => mul_comm _ _

/-- The squared distance of point n of x to its nearest point of y. -/
def nearest (x y : Pts.Idx → EReal) (b : Fin 4) (n : Fin 8192) : EReal :=
  (Finset.univ : Finset (Fin 8192)).inf fun m => dist x y b n m

/-- The same as an array over [4, 8192, 1]. -/
def nearestCol (x y : Pts.Idx → EReal) : Col.Idx → EReal := fun i => nearest x y (i 0) (i 1)

/-! ## The infimum tile by tile -/

/-- Index q of tile k of the 8192 indices. -/
def tile (k : Fin 8) (q : Fin 1024) : Fin 8192 := ⟨k.val * 1024 + q.val, by have := k.isLt; have := q.isLt; omega⟩

/-- The infimum of a function over the indices below L. -/
def below (f : Fin 8192 → EReal) (L : ℕ) : EReal := (Finset.univ.filter fun m : Fin 8192 => m.val < L).inf f

theorem below_zero (f : Fin 8192 → EReal) : below f 0 = ⊤ := by
  unfold below
  rw [Finset.filter_false_of_mem (fun m _ => Nat.not_lt_zero _)]
  rfl

theorem below_all (f : Fin 8192 → EReal) : below f 8192 = (Finset.univ : Finset (Fin 8192)).inf f := by
  unfold below
  rw [Finset.filter_true_of_mem (fun m _ => m.isLt)]

/-- One more tile: the infimum below (k+1)·1024 is the one below k·1024 met with tile k's infimum. -/
theorem below_step (f : Fin 8192 → EReal) (k : Fin 8) :
    below f ((k.val + 1) * 1024) = below f (k.val * 1024) ⊓ (Finset.univ : Finset (Fin 1024)).inf fun q => f (tile k q) := by
  unfold below
  have hsplit : (Finset.univ.filter fun m : Fin 8192 => m.val < (k.val + 1) * 1024)
      = (Finset.univ.filter fun m : Fin 8192 => m.val < k.val * 1024) ∪ (Finset.univ : Finset (Fin 1024)).image (tile k) := by
    ext m
    simp only [Finset.mem_filter, Finset.mem_univ, true_and, Finset.mem_union, Finset.mem_image]
    constructor
    · intro h
      by_cases hlt : m.val < k.val * 1024
      · exact Or.inl hlt
      · refine Or.inr ⟨⟨m.val - k.val * 1024, by omega⟩, Fin.ext ?_⟩
        show k.val * 1024 + (m.val - k.val * 1024) = m.val
        omega
    · rintro (h | ⟨q, rfl⟩)
      · omega
      · show k.val * 1024 + q.val < (k.val + 1) * 1024
        have := q.isLt; omega
  rw [hsplit, Finset.inf_union, Finset.inf_image]
  rfl

/-! ## Sums over [4, 8192, 1] and over [4, 8192] -/

/-- The index sets [4, 8192, 1] and [4, 8192] correspond. -/
def colEquiv : Col.Idx ≃ Rows.Idx where
  toFun i := ix2 (i 0) (i 1)
  invFun j := ix3 (j 0) (j 1) 0
  left_inv i := by
    funext a
    match a with
    | ⟨0, _⟩ => rfl
    | ⟨1, _⟩ => rfl
    | ⟨2, _⟩ => exact Fin.ext (by have h : (i 2).val < 1 := (i 2).isLt; show 0 = (i 2).val; omega)
  right_inv j := by
    funext a
    match a with
    | ⟨0, _⟩ => rfl
    | ⟨1, _⟩ => rfl

theorem sum_col (g : Fin 4 → Fin 8192 → EReal) :
    ∑ i : Col.Idx, g (i 0) (i 1) = ∑ j : Rows.Idx, g (j 0) (j 1) :=
  Fintype.sum_equiv colEquiv _ _ fun _ => rfl

/-! ## The three results -/

/-- The sum over all points of x of the squared distance to the nearest point of y. -/
def total (x y : Pts.Idx → EReal) : EReal := ∑ j : Rows.Idx, nearest x y (j 0) (j 1)

/-- The two directions' means added, clamped into [0, 10⁶]. -/
def chamfer (x y : Pts.Idx → EReal) : EReal :=
  min cap (max zero (Ideal.div (zero + total x y) count + Ideal.div (zero + total y x) count))

/-- The mean absolute density. -/
def density (d : Rows.Idx → EReal) : EReal := Ideal.div (zero + ∑ j : Rows.Idx, max (d j) (-(d j))) count

/-- The loss. -/
def loss (x y : Pts.Idx → EReal) (d : Rows.Idx → EReal) : EReal := one * chamfer x y + tenth * density d

end Cert.Spec

end
-- ==== Proof.KernelTail.lean ====
/-
  The host operations after the two launches, read as values.

  After the launches the program sums each launch's result column, divides by the number of points, adds the two means,
  clamps the sum into [0, 10⁶], takes the mean absolute density, and weighs the two. Here each of the three results is
  written as those operations applied to the two result columns as the launches left them and to the density argument;
  then, at the extended reals and for result columns that are the nearest-neighbour columns, they are the
  specification's three numbers.
-/
import proofs.«152328_j3298534884130_1_alg».proof.Proof.Gen.KernelIdeal.Frame
import proofs.«152328_j3298534884130_1_alg».proof.Proof.Spec
import Idealize.ShloMosaic.Lib.StableHlo.Run
import Idealize.ShloMosaic.PureOps.Ideal.Laws

noncomputable section

namespace Cert.KernelIdeal.Tail

open Cert.KernelIdeal Cert.KernelIdeal.Gen Idealize.ShloMosaic Idealize.ShloMosaic.TcCoe Idealize.SL.Sem
open Idealize.ShloMosaic.StableHlo

variable {F : FTy → Type} [FloatOps F]

/-- The mean of a result column. -/
def colMean (A : (⟨S4x8192x1, .f32⟩ : BufTy).Contents (Elt F)) : (⟨S_, .f32⟩ : BufTy).Contents (Elt F) :=
  Host.divf (Host.reduceAdd A (constant S_ .f32 0x00000000#32) reducesTo_S4x8192x1_S_d0_1_2 h_S_) (constant S_ .f32 0x47000000#32)
/-- The clamp into [0, 10⁶]. -/
def clamp (s : (⟨S_, .f32⟩ : BufTy).Contents (Elt F)) : (⟨S_, .f32⟩ : BufTy).Contents (Elt F) :=
  minimumf (id (constant S_ .f32 0x49742400#32)) (maximumf (id (constant S_ .f32 0x00000000#32)) s)
/-- The mean absolute value of the densities. -/
def meanAbs (d : (⟨S4x8192, .f32⟩ : BufTy).Contents (Elt F)) : (⟨S_, .f32⟩ : BufTy).Contents (Elt F) :=
  Host.divf (Host.reduceAdd (Host.absf d) (constant S_ .f32 0x00000000#32) reducesTo_S4x8192_S_d0_1 h_S_) (constant S_ .f32 0x47000000#32)
/-- The weighted sum of the two losses. -/
def weigh (ch de : (⟨S_, .f32⟩ : BufTy).Contents (Elt F)) : (⟨S_, .f32⟩ : BufTy).Contents (Elt F) :=
  addf (mulf (constant S_ .f32 0x3F800000#32) ch) (mulf (constant S_ .f32 0x3DCCCCCD#32) de)

section Stages
variable (m : (ℓ : Loc nD τ sig) → Buf (Elt F) ℓ) (ρ : Dev nD → PrngReg)

/-- After the first stretch: the two means added, and the clamp's two bounds. -/
theorem sum_stage (c : Dev nD) :
    W3 m ρ c (Proc.devRef .tc main_v6)
      = addf (colMean (W2 m ρ c (Proc.devRef .tc main_v0))) (colMean (W2 m ρ c (Proc.devRef .tc main_v1))) := by
  show StableHlo.after hostOps2 (W2 m ρ c) (Proc.devRef .tc main_v6) = _
  generalize W2 m ρ c = X
  after_results
  rfl
theorem lo_stage (c : Dev nD) : W3 m ρ c (Proc.devRef .tc main_cst_3) = constant S_ .f32 0x00000000#32 := by
  show StableHlo.after hostOps2 (W2 m ρ c) (Proc.devRef .tc main_cst_3) = _
  generalize W2 m ρ c = X
  after_results
theorem hi_stage (c : Dev nD) : W3 m ρ c (Proc.devRef .tc main_cst_4) = constant S_ .f32 0x49742400#32 := by
  show StableHlo.after hostOps2 (W2 m ρ c) (Proc.devRef .tc main_cst_4) = _
  generalize W2 m ρ c = X
  after_results

/-- After the clamp's stretch. -/
theorem clamp_stage (c : Dev nD) :
    W4 m ρ c (Proc.devRef .tc main_v7) = clamp (W3 m ρ c (Proc.devRef .tc main_v6)) := by
  show StableHlo.after hostOps2_1 (W3 m ρ c) (Proc.devRef .tc main_v7) = _
  have hlo := lo_stage m ρ c
  have hhi := hi_stage m ρ c
  generalize W3 m ρ c = X at hlo hhi ⊢
  after_results
  rw [hlo, hhi]
  rfl

/-- The density argument is as launched when the last stretch reads it. -/
theorem dens_stage (c : Dev nD) : W4 m ρ c (Proc.devRef .tc main_arg2) = m ((c : Thread nD τ).loc main_arg2) := by
  have h5 := W5_main_arg2 m ρ c
  have e : W5 m ρ c (Proc.devRef .tc main_arg2) = W4 m ρ c (Proc.devRef .tc main_arg2) := by
    show StableHlo.after hostOps2_2 (W4 m ρ c) (Proc.devRef .tc main_arg2) = _
    generalize W4 m ρ c = X
    after_results
  exact e.symm.trans h5

/-- The three results after the last stretch. -/
theorem chamfer_stage (c : Dev nD) : W5 m ρ c (Proc.devRef .tc main_v7) = W4 m ρ c (Proc.devRef .tc main_v7) := by
  show StableHlo.after hostOps2_2 (W4 m ρ c) (Proc.devRef .tc main_v7) = _
  generalize W4 m ρ c = X
  after_results
theorem density_stage (c : Dev nD) :
    W5 m ρ c (Proc.devRef .tc main_v10) = meanAbs (W4 m ρ c (Proc.devRef .tc main_arg2)) := by
  show StableHlo.after hostOps2_2 (W4 m ρ c) (Proc.devRef .tc main_v10) = _
  generalize W4 m ρ c = X
  after_results
  rfl
theorem loss_stage (c : Dev nD) :
    W5 m ρ c (Proc.devRef .tc main_v13)
      = weigh (W4 m ρ c (Proc.devRef .tc main_v7)) (meanAbs (W4 m ρ c (Proc.devRef .tc main_arg2))) := by
  show StableHlo.after hostOps2_2 (W4 m ρ c) (Proc.devRef .tc main_v13) = _
  generalize W4 m ρ c = X
  after_results
  rfl

end Stages

end Cert.KernelIdeal.Tail

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibLanes.lean ====
/-
  Rank-2 vectors read column by column and along the lanes, and rank-3 blocks with a leading unit axis, at the extended
  reals, for any sizes.

    * the transpose `[A, B] → [B, A]`, at `(d, q)`: the operand at `(q, d)`;
    * a sum over the rows (axis 0) of an `[A, B]` vector, at column `q`: `∑ₖ v(k, q)`;
    * the cast of a length-`B` vector to a row `[1, B]`, at `(u, q)`: the vector at `q`;
    * the broadcast of a row `[1, B]` down the rows to `[A, B]`, at `(p, q)`: the row at `(0, q)`;
    * a minimum over ONE axis: the fold of `min` from the starting word's value over that axis's coordinates; over the
      lanes (axis 1) of an `[A, B]` vector, at row `p`, the fold over `v(p, ·)`, which is the infimum of `v(p, ·)` when the
      starting word's value is `⊤`;
    * the cast of a `[1, A, B]` block to `[A, B]`, at `(p, k)`: the block at `(0, p, k)`; the cast back, at `(u, p, k)`:
      the vector at `(p, k)`.
-/
import Idealize.ShloMosaic.PureOps.Ideal.Laws
import Idealize.ShloMosaic.Lib.ValueIdx
import Idealize.ShloMosaic.Lib.Pipeline.Value

noncomputable section

namespace Cert.Lib.Lanes

open Idealize.ShloMosaic Idealize.ShloMosaic.ValueIdx

/-! ## The transpose of a matrix -/

section Transpose

variable {A B : Nat} {α : Type}

/-- The transpose of an `[A, B]` vector reads, at `(d, q)`, the operand at `(q, d)`. -/
theorem transpose_swap_apply (x : (⟨2, ![A, B]⟩ : Shape).Idx → α) (h : (⟨2, ![A, B]⟩ : Shape).Transposes [1, 0] ⟨2, ![B, A]⟩)
    (d : Fin B) (q : Fin A) : transpose ⟨2, ![B, A]⟩ [1, 0] x h (ix2 d q) = x (ix2 q d) := by
  refine transpose_apply [1, 0] x h (ix2 d q) (ix2 q d) fun b => ?_
  match b with
  | ⟨0, _⟩ => rfl
  | ⟨1, _⟩ => rfl

end Transpose

/-! ## Sums down the rows -/

section Rows

variable {A B : Nat} {φ : FTy}

/-- Column `q` with row `k` put back is `(k, q)`. -/
theorem lift_col (h : (⟨2, ![A, B]⟩ : Shape).Reduces [0] ⟨1, ![B]⟩) (q : Fin B) (k : Fin A) :
    h.lift (ix1 q) k = ix2 k q :=
  funext fun a => Fin.ext (by match a with | ⟨0, _⟩ => rfl | ⟨1, _⟩ => rfl)

/-- A sum down the rows at column `q`. -/
theorem colSum_apply (src : FVec Ideal ⟨2, ![A, B]⟩ φ) (acc : BitVec φ.bits) (h : (⟨2, ![A, B]⟩ : Shape).Reduces [0] ⟨1, ![B]⟩)
    (hφ : FKind.Formats φ) (hacc : acc = FKind.add.neutral φ hφ) (q : Fin B) :
    multiReduction .add [0] ⟨1, ![B]⟩ src acc h hφ hacc (ix1 q) = ∑ k : Fin A, src (ix2 k q) := by
  rw [Ideal.multiReduction_add_single]
  exact Finset.sum_congr rfl fun k _ => congrArg src (lift_col h q k)

end Rows

/-! ## Rows -/

section RowVectors

variable {A B : Nat} {α : Type}

/-- A length-`B` vector cast to a row reads, at `(u, q)`, the vector at `q`. -/
theorem row_apply (v : (⟨1, ![B]⟩ : Shape).Idx → α) (h : (⟨1, ![B]⟩ : Shape).ShapeCasts ⟨2, ![1, B]⟩) (u : Fin 1) (q : Fin B) :
    shapeCast ⟨2, ![1, B]⟩ v h (ix2 u q) = v (ix1 q) := by
  refine shapeCast_apply v h (ix2 u q) (ix1 q) ?_
  rw [Shape.rowMajor_val_one, Shape.rowMajor_val_two]
  have hu : u.val = 0 := by omega
  show q.val = u.val * B + q.val
  rw [hu, Nat.zero_mul, Nat.zero_add]

/-- A row broadcast down the rows reads, at `(p, q)`, the row at `(0, q)`. -/
theorem rowBroadcast_apply (v : (⟨2, ![1, B]⟩ : Shape).Idx → α) (h : (⟨2, ![1, B]⟩ : Shape).Broadcasts ⟨2, ![A, B]⟩)
    (hB : B ≠ 1) (p : Fin A) (q : Fin B) : broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

end RowVectors

/-! ## Minima -/

section Minimum

variable {φ : FTy}

/-- A float `vector.multi_reduction <minimumf>` over one axis, read at the extended reals: the fold of `min` from the
    starting word's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `min` from `⊤` is the infimum. -/
theorem fold_min_top {ι : Type} (s : Finset ι) (f : ι → EReal) : s.fold min ⊤ f = s.inf f := by
  classical
  refine Finset.induction_on s rfl fun a s ha ih => ?_
  rw [Finset.fold_insert ha, Finset.inf_insert, ih]

variable {A B : Nat}

/-- Row `p` with lane `k` put back is `(p, k)`. -/
theorem lift_lane (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane minimum at row `p`: the fold of `min` from the starting word's value. -/
theorem laneMin_apply (src : FVec Ideal ⟨2, ![A, B]⟩ φ) (acc : BitVec φ.bits) (h : (⟨2, ![A, B]⟩ : Shape).Reduces [1] ⟨1, ![A]⟩)
    (hφ : FKind.Formats φ) (hacc : acc = FKind.minimumf.neutral φ hφ) (p : Fin A) :
    multiReduction .minimumf [1] ⟨1, ![A]⟩ src acc h hφ hacc (ix1 p)
      = (Finset.univ : Finset (Fin B)).fold min (Ideal.ofBits φ acc) (fun k => src (ix2 p k)) := by
  rw [multiReduction_minimumf_single]
  have e : (src ∘ h.lift (ix1 p)) = fun k => src (ix2 p k) := funext fun k => congrArg src (lift_lane h p k)
  rw [e]
  rfl

/-- A lane minimum from a starting word whose value is `⊤`, at row `p`: the infimum along the row. -/
theorem laneInf_apply (src : FVec Ideal ⟨2, ![A, B]⟩ φ) (acc : BitVec φ.bits) (h : (⟨2, ![A, B]⟩ : Shape).Reduces [1] ⟨1, ![A]⟩)
    (hφ : FKind.Formats φ) (hacc : acc = FKind.minimumf.neutral φ hφ) (htop : Ideal.ofBits φ acc = (⊤ : EReal)) (p : Fin A) :
    multiReduction .minimumf [1] ⟨1, ![A]⟩ src acc h hφ hacc (ix1 p)
      = (Finset.univ : Finset (Fin B)).inf fun k => src (ix2 p k) := by
  rw [laneMin_apply, htop, fold_min_top]

end Minimum

/-! ## Blocks with a leading unit axis -/

section UnitBlocks

variable {A B : Nat} {α : Type}

/-- A `[1, A, B]` block viewed `[A, B]` reads, at `(p, k)`, the block at `(0, p, k)`. -/
theorem dropUnit_apply (v : (⟨3, ![1, A, B]⟩ : Shape).Idx → α) (h : (⟨3, ![1, A, B]⟩ : Shape).ShapeCasts ⟨2, ![A, B]⟩)
    (p : Fin A) (k : Fin B) : shapeCast ⟨2, ![A, B]⟩ v h (ix2 p k) = v (ix3 0 p k) := by
  refine shapeCast_apply v h (ix2 p k) (ix3 0 p k) ?_
  rw [Shape.rowMajor_val_two, Shape.rowMajor_val_three]
  show (0 * A + p.val) * B + k.val = p.val * B + k.val
  rw [Nat.zero_mul, Nat.zero_add]

/-- An `[A, B]` vector stored as a `[1, A, B]` block reads, at `(u, p, k)`, the vector at `(p, k)`. -/
theorem addUnit_apply (v : (⟨2, ![A, B]⟩ : Shape).Idx → α) (h : (⟨2, ![A, B]⟩ : Shape).ShapeCasts ⟨3, ![1, A, B]⟩)
    (u : Fin 1) (p : Fin A) (k : Fin B) : shapeCast ⟨3, ![1, A, B]⟩ v h (ix3 u p k) = v (ix2 p k) := by
  refine shapeCast_apply v h (ix3 u p k) (ix2 p k) ?_
  rw [Shape.rowMajor_val_two, Shape.rowMajor_val_three]
  have hu : u.val = 0 := by omega
  show p.val * B + k.val = (u.val * A + p.val) * B + k.val
  rw [hu, Nat.zero_mul, Nat.zero_add]

end UnitBlocks

end Cert.Lib.Lanes

end
-- ==== Proof.Payload.lean ====
/-
  The kernel body's arithmetic, read at one row of the output block.

  A grid point holds 512 points of the first cloud (rows r) and 1024 points of the second (rows q) of one batch.
  The body forms |x_r|² as a lane sum, |y_q|² as a sum down the three rows of the transposed tile, the 512×1024 inner
  products as a matrix product into zero, d(r, q) = max(|x_r|² + |y_q|² − 2⟨x_r, y_q⟩, 0), takes the minimum over q along
  the lanes, and stores min(acc_r, that) where acc is what the output block held. The reset stores ⊤ everywhere.
-/
import proofs.«152328_j3298534884130_1_alg».proof.Proof.Gen.KernelIdeal.Skeleton
import proofs.«152328_j3298534884130_1_alg».proof.Proof.Spec
import proofs.«152328_j3298534884130_1_alg».proof.Proof.LibRowwise
import proofs.«152328_j3298534884130_1_alg».proof.Proof.LibLanes
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The clamped squared distance of row r of the first tile to row q of the second. -/
def tdist (x0 : Vec Ideal S1x512x3 .f32) (x1 : Vec Ideal S1x1024x3 .f32) (r : Fin 512) (q : Fin 1024) : EReal :=
  max (((∑ d : Fin 3, x0 (ix3 0 r d) * x0 (ix3 0 r d)) + (∑ d : Fin 3, x1 (ix3 0 q d) * x1 (ix3 0 q d)))
    - Cert.Spec.two * (∑ d : Fin 3, x0 (ix3 0 r d) * x1 (ix3 0 q d))) Cert.Spec.zero

/-- The reset block is ⊤ at every row. -/
theorem reset_apply (r : Fin 512) : (k0_pay1 (F := Ideal) : Vec Ideal S1x512x1 .f32) (ix3 0 r 0) = (⊤ : EReal) := by
  -- the block is the splat of the word 0x7F800000 behind a unit-axis cast, and that word's value is ⊤
  unfold k0_pay1
  exact Cert.Spec.inf_word

/-- The update block at row r: the accumulator's entry met with the tile's infimum of distances. -/
theorem update_apply (x0 : Vec Ideal S1x512x3 .f32) (x1 : Vec Ideal S1x1024x3 .f32) (xo : Vec Ideal S1x512x1 .f32) (r : Fin 512) :
    (k0_pay2 x0 x1 xo : Vec Ideal S1x512x1 .f32) (ix3 0 r 0)
      = min (xo (ix3 0 r 0)) ((Finset.univ : Finset (Fin 1024)).inf fun q => tdist x0 x1 r q) := by
  unfold k0_pay2
  -- the stored block at (0, r, 0) is min(acc(0, r, 0), m(r)), m the lane minimum of the distance matrix
  rw [Cert.Lib.Lanes.addUnit_apply, minimumf_apply, Cert.Lib.Lanes.dropUnit_apply, Cert.Lib.Rowwise.column_apply]
  refine congrArg (min _) ?_
  -- the lane minimum from the word of value ⊤ is the infimum along row r
  refine (Cert.Lib.Lanes.laneInf_apply _ _ _ _ _ Cert.Spec.inf_word r).trans (Finset.inf_congr rfl fun q _ => ?_)
  -- entry (r, q): max((|x_r|² + |y_q|²) − 2·⟨x_r, y_q⟩, 0), the two norms read through their broadcasts
  rw [maximumf_apply, subf_apply, addf_apply, mulf_apply, broadcast_apply, broadcast_apply,
    Cert.Lib.Rowwise.columnBroadcast_apply _ _ (by decide), Cert.Lib.Rowwise.column_apply,
    Cert.Lib.Lanes.rowBroadcast_apply _ _ (by decide), Cert.Lib.Lanes.row_apply]
  unfold tdist
  refine congrArg₂ max (congrArg₂ (· - ·) (congrArg₂ (· + ·) ?_ ?_) (congrArg₂ (· * ·) rfl ?_)) rfl
  · -- |x_r|²: the lane sum of the squared row
    refine (Cert.Lib.Rowwise.laneSum_apply _ _ _ _ _ r).trans (Finset.sum_congr rfl fun d _ => ?_)
    rw [mulf_apply, Cert.Lib.Lanes.dropUnit_apply]
  · -- |y_q|²: the sum down the three rows of the squared transposed tile
    refine (Cert.Lib.Lanes.colSum_apply _ _ _ _ _ q).trans (Finset.sum_congr rfl fun d _ => ?_)
    rw [mulf_apply, Cert.Lib.Lanes.transpose_swap_apply, Cert.Lib.Lanes.dropUnit_apply]
  · -- ⟨x_r, y_q⟩: the plain product [512, 3] × [3, 1024] into zero
    rw [Cert.Lib.Rowwise.eq_plain dot_S512x3_S3x1024_S512x1024_1_0_0_1_n_n rfl rfl rfl rfl rfl rfl]
    refine (Cert.Lib.Rowwise.plain_matmul_zero_apply _ _ _ r q).trans (Finset.sum_congr rfl fun d _ => ?_)
    rw [Cert.Lib.Lanes.dropUnit_apply, Cert.Lib.Lanes.transpose_swap_apply, Cert.Lib.Lanes.dropUnit_apply]

/-- The second launch runs the same body. -/
theorem pay1_same {F : FTy → Type} [FloatOps F] : k1_pay1 (F := F) = k0_pay1 (F := F) := rfl
theorem pay2_same {F : FTy → Type} [FloatOps F] (v3 : Vec F S1x512x3 .f32) (v5 : Vec F S1x1024x3 .f32) (v25 : Vec F S1x512x1 .f32) :
    k1_pay2 v3 v5 v25 = k0_pay2 v3 v5 v25 := rfl

end Cert.KernelIdeal.Pay

end
-- ==== Proof.Pieces0.lean ====
/-
  What one grid point of the first launch leaves in the output block, as values.

  At a point that opens a run of eight (the reduction coordinate is 0) the body first stores the reset block and then the
  update computed over that reset block; at every other point it stores the update computed over what the block held.
-/
import proofs.«152328_j3298534884130_1_alg».proof.Proof.Gen.KernelIdeal.Frame
import Idealize.ShloMosaic.Lib.Pipeline.Value
import Idealize.ShloMosaic.Lib.Tactic

noncomputable section

namespace Cert.KernelIdeal.Region0

open Cert.KernelIdeal Cert.KernelIdeal.Gen Idealize.ShloMosaic Idealize.ShloMosaic.TcCoe Idealize.SL.Sem

variable {F : FTy → Type} [FloatOps F]

/-- The zero offsets of a rank-3 block, as the constant function. -/
private theorem hz : (![0, 0, 0] : Fin 3 → Nat) = fun _ => 0 := funext fun a => by fin_cases a <;> rfl

/-- A run's first point: the update over the reset block. -/
theorem out_first (c : Dev nD) (i : grid0.Coords) (a3 : Memref sig .tc .vmem S1x512x3 .f32) (h3 : a3.IsWhole)
    (a4 : Memref sig .tc .vmem S1x1024x3 .f32) (h4 : a4.IsWhole) (a5 : Memref sig .tc .vmem S1x512x1 .f32) (h5 : a5.IsWhole)
    (hc : cond0_0 i) (x0 : Vec F S1x512x3 .f32) (x1 : Vec F S1x1024x3 .f32) :
    out0_A_2 c i a3 h3 a4 h4 a5 h5 hc x0 x1 = k0_pay2 x0 x1 (k0_pay1 (F := F)) := by
  -- The stores cover the block, so what is read back is the canonical form of the pieces.
  unfold out0_A_2
  rw [View.read_writes_eq_canon _ _ _ (cover0_A_2 c i a3 h3 a4 h4 a5 h5 hc x0 x1)]
  unfold kernelRun0_A
  dsimp only
  sl_unfold_words
  -- Two whole-block stores: the later one (the update) decides every entry; its third argument is the block
  -- read back after the reset store alone, which is the reset block.
  rw [View.canon_cons_unit_zero (S := S1x512x1) hz, View.readCov_unit_zero (S := S1x512x1) _ hz]
  -- The two inputs are read whole, at their contents.
  simp only [View.readAt_eq_ld, h3.read_unread, h4.read_unread, View.ld_unit_zero (S := S1x512x3) hz,
    View.ld_unit_zero (S := S1x1024x3) hz]

/-- A later point: the update over what the block held. -/
theorem out_later (c : Dev nD) (i : grid0.Coords) (a3 : Memref sig .tc .vmem S1x512x3 .f32) (h3 : a3.IsWhole)
    (a4 : Memref sig .tc .vmem S1x1024x3 .f32) (h4 : a4.IsWhole) (a5 : Memref sig .tc .vmem S1x512x1 .f32) (h5 : a5.IsWhole)
    (hc : ¬cond0_0 i) (x0 : Vec F S1x512x3 .f32) (x1 : Vec F S1x1024x3 .f32) (xo : Vec F S1x512x1 .f32) :
    out0_B_2 c i a3 h3 a4 h4 a5 h5 hc x0 x1 xo = k0_pay2 x0 x1 xo := by
  -- The one store covers the block, so what is read back is the canonical form of its piece: the payload.
  unfold out0_B_2
  rw [View.read_writes_eq_canon _ _ _ (cover0_B_2 c i a3 h3 a4 h4 a5 h5 hc x0 x1 xo)]
  unfold kernelRun0_B
  dsimp only
  sl_unfold_words
  rw [View.canon_unit_zero hz]
  -- The two inputs and the output block are read whole, at their contents.
  simp only [View.readAt_eq_ld, h3.read_unread, h4.read_unread, h5.read_unread, View.ld_unit_zero (S := S1x512x3) hz,
    View.ld_unit_zero (S := S1x1024x3) hz, View.ld_unit_zero (S := S1x512x1) hz]

end Cert.KernelIdeal.Region0

end
-- ==== Proof.Blocks0.lean ====
/-
  Where the first launch's windows sit in their arrays.

  Point t of the 4·16·8 grid is batch t / 128, row tile (t / 8) mod 16, column tile t mod 8. Its first input block is
  rows [512·rowTile, 512·rowTile + 512) of the launch's first operand in that batch, its second input block rows
  [1024·colTile, 1024·colTile + 1024) of the launch's second operand, and its output block the same 512 rows of the
  launch's result column.
  The output block is written back at the last point of each run of eight, and those 64 blocks tile the result.
-/
import proofs.«152328_j3298534884130_1_alg».proof.Proof.Gen.KernelIdeal.Frame
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

theorem lt512 (t : Fin cfg0.N) : t.val < 512 := lt_of_lt_of_eq t.isLt (show cfg0.N = 512 from N_0)

/-- The batch of point t. -/
def pb (t : ℕ) (h : t < 512) : Fin 4 := ⟨t / 128, by omega⟩
/-- Row r of point t's row tile, as a row of the cloud. -/
def prow (t : ℕ) (h : t < 512) (r : Fin 512) : Fin 8192 := ⟨(t / 8 % 16) * 512 + r.val, by have := r.isLt; omega⟩
/-- Row q of point t's column tile, as a row of the other cloud. -/
def pcol (t : ℕ) (h : t < 512) (q : Fin 1024) : Fin 8192 := ⟨(t % 8) * 1024 + q.val, by have := q.isLt; omega⟩

/-- The three index maps at every point of the grid: batch, then row tile (first and third window) or column
    tile (second window), then 0. -/
theorem idx_facts : ∀ t : Fin cfg0.N,
    (win0_0.index t (0 : Fin 3) = t.val / 128 ∧ win0_0.index t (1 : Fin 3) = t.val / 8 % 16 ∧ win0_0.index t (2 : Fin 3) = 0)
    ∧ (win0_1.index t (0 : Fin 3) = t.val / 128 ∧ win0_1.index t (1 : Fin 3) = t.val % 8 ∧ win0_1.index t (2 : Fin 3) = 0)
    ∧ (win0_2.index t (0 : Fin 3) = t.val / 128 ∧ win0_2.index t (1 : Fin 3) = t.val / 8 % 16 ∧ win0_2.index t (2 : Fin 3) = 0) :=
  (by decide +kernel : ∀ t : Fin grid0.N, _)

/-- The first input block read at (0, r, d). -/
theorem xblk_apply (c : Dev nD) (t : Fin cfg0.N) (r : Fin 512) (d : Fin 3) :
    (iblk0 V c 0 t : Vec F S1x512x3 .f32) (ix3 0 r d)
      = (V c main_arg0 : Vec F S4x8192x3 .f32) (ix3 (pb t.val (lt512 t)) (prow t.val (lt512 t) r) d) := by
  obtain ⟨⟨e0, e1, e2⟩, -, -⟩ := idx_facts t
  unfold iblk0
  rw [View.read_apply]
  show V c main_arg0 (((cfg0.win 0).blk t).view.emb (ix3 0 r d)) = V c main_arg0 _
  congr 1
  funext a
  apply Fin.ext
  match a with
  | ⟨0, _⟩ => show win0_0.index t (0 : Fin 3) * 1 + 1 * 0 = t.val / 128; rw [e0]; omega
  | ⟨1, _⟩ => show win0_0.index t (1 : Fin 3) * 512 + 1 * r.val = (t.val / 8 % 16) * 512 + r.val; rw [e1]; omega
  | ⟨2, _⟩ => show win0_0.index t (2 : Fin 3) * 3 + 1 * d.val = d.val; rw [e2]; omega

/-- The second input block read at (0, q, d). -/
theorem yblk_apply (c : Dev nD) (t : Fin cfg0.N) (q : Fin 1024) (d : Fin 3) :
    (iblk0 V c 1 t : Vec F S1x1024x3 .f32) (ix3 0 q d)
      = (V c main_arg1 : Vec F S4x8192x3 .f32) (ix3 (pb t.val (lt512 t)) (pcol t.val (lt512 t) q) d) := by
  obtain ⟨-, ⟨e0, e1, e2⟩, -⟩ := idx_facts t
  unfold iblk0
  rw [View.read_apply]
  show V c main_arg1 (((cfg0.win 1).blk t).view.emb (ix3 0 q d)) = V c main_arg1 _
  congr 1
  funext a
  apply Fin.ext
  match a with
  | ⟨0, _⟩ => show win0_1.index t (0 : Fin 3) * 1 + 1 * 0 = t.val / 128; rw [e0]; omega
  | ⟨1, _⟩ => show win0_1.index t (1 : Fin 3) * 1024 + 1 * q.val = (t.val % 8) * 1024 + q.val; rw [e1]; omega
  | ⟨2, _⟩ => show win0_1.index t (2 : Fin 3) * 3 + 1 * d.val = d.val; rw [e2]; omega

/-- The output block of point t of any array over the result's shape, read at (0, r, 0). -/
theorem oblk_read (c : Dev nD) (t : Fin cfg0.N) (G : Vec F S4x8192x1 .f32) (r : Fin 512) :
    (((cfg0.win 2).blk t).view.read (Elt F) G : Vec F S1x512x1 .f32) (ix3 0 r 0)
      = G (ix3 (pb t.val (lt512 t)) (prow t.val (lt512 t) r) 0) := by
  obtain ⟨-, -, e0, e1, e2⟩ := idx_facts t
  rw [View.read_apply]
  show G (((cfg0.win 2).blk t).view.emb (ix3 0 r 0)) = G _
  congr 1
  funext a
  apply Fin.ext
  match a with
  | ⟨0, _⟩ => show win0_2.index t (0 : Fin 3) * 1 + 1 * 0 = t.val / 128; rw [e0]; omega
  | ⟨1, _⟩ => show win0_2.index t (1 : Fin 3) * 512 + 1 * r.val = (t.val / 8 % 16) * 512 + r.val; rw [e1]; omega
  | ⟨2, _⟩ => show win0_2.index t (2 : Fin 3) * 1 + 1 * 0 = 0; rw [e2]

/-- Entry (b, n, 0) of the result lies in the block of point (16 b + n / 512) · 8 + 7, the last of a run of eight. -/
theorem cover_idx (i : S4x8192x1.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1 := (i 2).isLt
  obtain ⟨n, hn⟩ : ∃ n : ℕ, n = ((i 0).val * 16 + (i 1).val / 512) * 8 + 7 := ⟨_, rfl⟩
  have hN : n < cfg0.N := by rw [show cfg0.N = 512 from N_0]; omega
  obtain ⟨-, -, e0, e1, e2⟩ := idx_facts ⟨n, hN⟩
  have f0 : win0_2.index ⟨n, hN⟩ (0 : Fin 3) = n / 128 := e0
  have f1 : win0_2.index ⟨n, hN⟩ (1 : Fin 3) = n / 8 % 16 := e1
  have f2 : win0_2.index ⟨n, hN⟩ (2 : Fin 3) = 0 := e2
  refine ⟨⟨n, hN⟩, (flush0_2 ⟨n, hN⟩).mpr (by show n % 8 = 7; omega), ?_⟩
  show i ∈ ((View.whole main_v0).slice (win0_2.rect ⟨n, hN⟩)).set
  rw [View.set_slice_whole, Rect.mem_set_unit]
  intro a
  match a with
  | ⟨0, _⟩ =>
    show win0_2.index ⟨n, hN⟩ (0 : Fin 3) * 1 ≤ (i 0).val ∧ (i 0).val < win0_2.index ⟨n, hN⟩ (0 : Fin 3) * 1 + 1
    rw [f0]; omega
  | ⟨1, _⟩ =>
    show win0_2.index ⟨n, hN⟩ (1 : Fin 3) * 512 ≤ (i 1).val ∧ (i 1).val < win0_2.index ⟨n, hN⟩ (1 : Fin 3) * 512 + 512
    rw [f1]; omega
  | ⟨2, _⟩ =>
    show win0_2.index ⟨n, hN⟩ (2 : Fin 3) * 1 ≤ (i 2).val ∧ (i 2).val < win0_2.index ⟨n, hN⟩ (2 : Fin 3) * 1 + 1
    rw [f2]; omega

/-- Every entry of the result lies in the block of a point that writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set :=
  cover_idx i

end Cert.KernelIdeal.Region0

end
-- ==== Proof.Final0.lean ====
/-
  The first launch's result column is the nearest-neighbour column.

  Along a run of eight consecutive grid points the batch and the row tile stay fixed and the column tile goes 0, 1, …, 7.
  The output block is reset to ⊤ at the run's first point and at every point is met, row by row, with the infimum of the
  clamped distances from that row's point to the 1024 points of the current column tile. So after the point with column
  tile k the block holds, at row r, the infimum over the first (k + 1)·1024 points of the columns' cloud (by induction
  along the run, one tile at a time); after the eighth point that is the infimum over all 8192, the block is written
  back, and the 64 written blocks tile the column.
-/
import proofs.«152328_j3298534884130_1_alg».proof.Proof.Gen.KernelIdeal.Frame
import proofs.«152328_j3298534884130_1_alg».proof.Proof.Spec
import proofs.«152328_j3298534884130_1_alg».proof.Proof.Payload
import proofs.«152328_j3298534884130_1_alg».proof.Proof.Pieces0
import proofs.«152328_j3298534884130_1_alg».proof.Proof.Blocks0
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two clouds as the launch finds them: the rows' cloud first, the columns' cloud second. -/
abbrev rowCloud (c : Dev nD) : Cert.Spec.Pts.Idx → EReal := V c main_arg0
abbrev colCloud (c : Dev nD) : Cert.Spec.Pts.Idx → EReal := V c main_arg1

/-- The clamped distances from one point of the rows' cloud, as a function of the other cloud's index. -/
def fromRow (c : Dev nD) (b : Fin 4) (n : Fin 8192) : Fin 8192 → EReal :=
  fun k => Cert.Spec.dist (rowCloud V c) (colCloud V c) b n k

theorem lt8 (t : ℕ) : t % 8 < 8 := Nat.mod_lt _ (by decide)

/-- The tile step with the tile's number a natural number. -/
theorem below_succ (f : Fin 8192 → EReal) (j : ℕ) (hj : j < 8) :
    Cert.Spec.below f ((j + 1) * 1024)
      = Cert.Spec.below f (j * 1024) ⊓ (Finset.univ : Finset (Fin 1024)).inf fun q => f (Cert.Spec.tile ⟨j, hj⟩ q) :=
  Cert.Spec.below_step f ⟨j, hj⟩

/-- A point's tile infimum of block distances is the infimum of the clouds' distances over its column tile. -/
theorem tile_inf (c : Dev nD) (t : Fin cfg0.N) (r : Fin 512) :
    ((Finset.univ : Finset (Fin 1024)).inf fun q => Cert.KernelIdeal.Pay.tdist (iblk0 V c 0 t) (iblk0 V c 1 t) r q)
      = (Finset.univ : Finset (Fin 1024)).inf fun q =>
          fromRow V c (pb t.val (lt512 t)) (prow t.val (lt512 t) r) (Cert.Spec.tile ⟨t.val % 8, lt8 t.val⟩ q) := by
  refine congrArg _ (funext fun q => ?_)
  unfold Cert.KernelIdeal.Pay.tdist fromRow Cert.Spec.dist Cert.Spec.sqn Cert.Spec.dot3
  simp only [xblk_apply V c t, yblk_apply V c t]
  rfl

/-- After a run's first point. -/
theorem at_first (c : Dev nD) (t : Fin cfg0.N) (h0 : t.val % 8 = 0) (r : Fin 512) :
    (outsAt0 V c t.val t.isLt : Vec Ideal S1x512x1 .f32) (ix3 0 r 0)
      = Cert.Spec.below (fromRow V c (pb t.val (lt512 t)) (prow t.val (lt512 t) r)) ((t.val % 8 + 1) * 1024) := by
  rw [outsAt0_A V c t h0]
  refine (congrFun (out_first (F := Ideal) c (grid0.coords t) (ms0_0 t) (hs0_0 t) (ms0_1 t) (hs0_1 t) (ms0_2 t) (hs0_2 t)
    ((hcond0_0 t).mpr h0) (iblk0 V c 0 t) (iblk0 V c 1 t)) (ix3 0 r 0)).trans ?_
  refine (Cert.KernelIdeal.Pay.update_apply (iblk0 V c 0 t) (iblk0 V c 1 t) (k0_pay1 (F := Ideal)) r).trans ?_
  rw [Cert.KernelIdeal.Pay.reset_apply r, tile_inf V c t r, below_succ _ (t.val % 8) (lt8 t.val),
    show t.val % 8 * 1024 = 0 from by omega, Cert.Spec.below_zero]

/-- Within a run the batch and the row tile do not move. -/
theorem pb_pred (t : ℕ) (h : t < 512) (h0 : ¬t % 8 = 0) : pb (t - 1) (by omega) = pb t h :=
  Fin.ext (by show (t - 1) / 128 = t / 128; omega)
theorem prow_pred (t : ℕ) (h : t < 512) (h0 : ¬t % 8 = 0) (r : Fin 512) : prow (t - 1) (by omega) r = prow t h r :=
  Fin.ext (by show (t - 1) / 8 % 16 * 512 + r.val = t / 8 % 16 * 512 + r.val; omega)

/-- After a later point of a run, from what the point before left. -/
theorem at_later (c : Dev nD) (t : Fin cfg0.N) (h0 : ¬t.val % 8 = 0) (r : Fin 512)
    (ih : (outsAt0 V c (t.val - 1) (Nat.lt_of_le_of_lt (Nat.sub_le _ _) t.isLt) : Vec Ideal S1x512x1 .f32) (ix3 0 r 0)
      = Cert.Spec.below (fromRow V c (pb (t.val - 1) (by have := lt512 t; omega)) (prow (t.val - 1) (by have := lt512 t; omega) r))
          (((t.val - 1) % 8 + 1) * 1024)) :
    (outsAt0 V c t.val t.isLt : Vec Ideal S1x512x1 .f32) (ix3 0 r 0)
      = Cert.Spec.below (fromRow V c (pb t.val (lt512 t)) (prow t.val (lt512 t) r)) ((t.val % 8 + 1) * 1024) := by
  rw [outsAt0_B V c t h0]
  refine (congrFun (out_later (F := Ideal) c (grid0.coords t) (ms0_0 t) (hs0_0 t) (ms0_1 t) (hs0_1 t) (ms0_2 t) (hs0_2 t)
    (fun h => h0 ((hcond0_0 t).mp h)) (iblk0 V c 0 t) (iblk0 V c 1 t)
    (outsAt0 V c (t.val - 1) (Nat.lt_of_le_of_lt (Nat.sub_le _ _) t.isLt))) (ix3 0 r 0)).trans ?_
  refine (Cert.KernelIdeal.Pay.update_apply (iblk0 V c 0 t) (iblk0 V c 1 t)
    (outsAt0 V c (t.val - 1) (Nat.lt_of_le_of_lt (Nat.sub_le _ _) t.isLt)) r).trans ?_
  rw [ih, tile_inf V c t r, below_succ _ (t.val % 8) (lt8 t.val), pb_pred t.val (lt512 t) h0, prow_pred t.val (lt512 t) h0 r,
    show ((t.val - 1) % 8 + 1) * 1024 = t.val % 8 * 1024 from by omega]

/-- What the output block holds after point n, row by row: the infimum over the column tiles seen so far in the run. -/
theorem outsAt_apply (c : Dev nD) : ∀ (n : ℕ) (hn : n < cfg0.N) (r : Fin 512),
    (outsAt0 V c n hn : Vec Ideal S1x512x1 .f32) (ix3 0 r 0)
      = Cert.Spec.below (fromRow V c (pb n (lt512 ⟨n, hn⟩)) (prow n (lt512 ⟨n, hn⟩) r)) ((n % 8 + 1) * 1024)
  | 0, hn, r => at_first V c ⟨0, hn⟩ rfl r
  | n + 1, hn, r => by
    by_cases h0 : (n + 1) % 8 = 0
    · exact at_first V c ⟨n + 1, hn⟩ h0 r
    · exact at_later V c ⟨n + 1, hn⟩ h0 r (outsAt_apply c n (Nat.lt_of_succ_lt hn) r)

/-- The block written back at the end of a run is the nearest-neighbour column's block. -/
theorem flushed_eq (c : Dev nD) (t : Fin cfg0.N) (hf : (cfg0.win 2).flush t = true) :
    (dat0 V c).flushed 2 t
      = ((cfg0.win 2).blk t).view.read (Elt Ideal) (Cert.Spec.nearestCol (rowCloud V c) (colCloud V c)) := by
  have h7 : t.val % 8 = 7 := (flush0_2 t).mp hf
  show (cfg0.win 2).cut (grid0.coords t) ((dat0 V c).after 2 t) = _
  rw [after0_2]
  funext y
  have hy : y = (ix3 0 (y 1) 0 : S1x512x1.Idx) := by
    funext a
    match a with
    | ⟨0, _⟩ => exact Fin.ext (by have h : (y 0).val < 1 := (y 0).isLt; show (y 0).val = 0; omega)
    | ⟨1, _⟩ => rfl
    | ⟨2, _⟩ => exact Fin.ext (by have h : (y 2).val < 1 := (y 2).isLt; show (y 2).val = 0; omega)
  rw [hy]
  refine (outsAt_apply V c t.val t.isLt (y 1)).trans ?_
  rw [oblk_read c t _ (y 1), show (t.val % 8 + 1) * 1024 = 8192 from by omega, Cert.Spec.below_all]
  rfl

/-- So the launch's result column ends holding the nearest-neighbour column of its two clouds. -/
theorem final (c : Dev nD) :
    (dat0 V c).arrAt 2 cfg0.N = Cert.Spec.nearestCol (rowCloud V c) (colCloud V c) :=
  (dat0 V c).arrAt_eq_of_cover 2 _ (flushed_eq V c) (cover c)

end Cert.KernelIdeal.Region0

end
-- ==== Proof.Pieces1.lean ====
/-
  What one grid point of the second launch leaves in the output block, as values.

  At a point that opens a run of eight (the reduction coordinate is 0) the body first stores the reset block and then the
  update computed over that reset block; at every other point it stores the update computed over what the block held.
-/
import proofs.«152328_j3298534884130_1_alg».proof.Proof.Gen.KernelIdeal.Frame
import Idealize.ShloMosaic.Lib.Pipeline.Value
import Idealize.ShloMosaic.Lib.Tactic

noncomputable section

namespace Cert.KernelIdeal.Region1

open Cert.KernelIdeal Cert.KernelIdeal.Gen Idealize.ShloMosaic Idealize.ShloMosaic.TcCoe Idealize.SL.Sem

variable {F : FTy → Type} [FloatOps F]

/-- The zero offsets of a rank-3 block, as the constant function. -/
private theorem hz : (![0, 0, 0] : Fin 3 → Nat) = fun _ => 0 := funext fun a => by fin_cases a <;> rfl

/-- A run's first point: the update over the reset block. -/
theorem out_first (c : Dev nD) (i : grid1.Coords) (a3 : Memref sig .tc .vmem S1x512x3 .f32) (h3 : a3.IsWhole)
    (a4 : Memref sig .tc .vmem S1x1024x3 .f32) (h4 : a4.IsWhole) (a5 : Memref sig .tc .vmem S1x512x1 .f32) (h5 : a5.IsWhole)
    (hc : cond1_0 i) (x0 : Vec F S1x512x3 .f32) (x1 : Vec F S1x1024x3 .f32) :
    out1_A_2 c i a3 h3 a4 h4 a5 h5 hc x0 x1 = k1_pay2 x0 x1 (k1_pay1 (F := F)) := by
  -- The stores cover the block, so what is read back is the canonical form of the pieces.
  unfold out1_A_2
  rw [View.read_writes_eq_canon _ _ _ (cover1_A_2 c i a3 h3 a4 h4 a5 h5 hc x0 x1)]
  unfold kernelRun1_A
  dsimp only
  sl_unfold_words
  -- Two whole-block stores: the later one (the update) decides every entry; its third argument is the block
  -- read back after the reset store alone, which is the reset block.
  rw [View.canon_cons_unit_zero (S := S1x512x1) hz, View.readCov_unit_zero (S := S1x512x1) _ hz]
  -- The two inputs are read whole, at their contents.
  simp only [View.readAt_eq_ld, h3.read_unread, h4.read_unread, View.ld_unit_zero (S := S1x512x3) hz,
    View.ld_unit_zero (S := S1x1024x3) hz]

/-- A later point: the update over what the block held. -/
theorem out_later (c : Dev nD) (i : grid1.Coords) (a3 : Memref sig .tc .vmem S1x512x3 .f32) (h3 : a3.IsWhole)
    (a4 : Memref sig .tc .vmem S1x1024x3 .f32) (h4 : a4.IsWhole) (a5 : Memref sig .tc .vmem S1x512x1 .f32) (h5 : a5.IsWhole)
    (hc : ¬cond1_0 i) (x0 : Vec F S1x512x3 .f32) (x1 : Vec F S1x1024x3 .f32) (xo : Vec F S1x512x1 .f32) :
    out1_B_2 c i a3 h3 a4 h4 a5 h5 hc x0 x1 xo = k1_pay2 x0 x1 xo := by
  -- The one store covers the block, so what is read back is the canonical form of its piece: the payload.
  unfold out1_B_2
  rw [View.read_writes_eq_canon _ _ _ (cover1_B_2 c i a3 h3 a4 h4 a5 h5 hc x0 x1 xo)]
  unfold kernelRun1_B
  dsimp only
  sl_unfold_words
  rw [View.canon_unit_zero hz]
  -- The two inputs and the output block are read whole, at their contents.
  simp only [View.readAt_eq_ld, h3.read_unread, h4.read_unread, h5.read_unread, View.ld_unit_zero (S := S1x512x3) hz,
    View.ld_unit_zero (S := S1x1024x3) hz, View.ld_unit_zero (S := S1x512x1) hz]

end Cert.KernelIdeal.Region1

end
-- ==== Proof.Blocks1.lean ====
/-
  Where the second launch's windows sit in their arrays.

  Point t of the 4·16·8 grid is batch t / 128, row tile (t / 8) mod 16, column tile t mod 8. Its first input block is
  rows [512·rowTile, 512·rowTile + 512) of the launch's first operand in that batch, its second input block rows
  [1024·colTile, 1024·colTile + 1024) of the launch's second operand, and its output block the same 512 rows of the
  launch's result column.
  The output block is written back at the last point of each run of eight, and those 64 blocks tile the result.
-/
import proofs.«152328_j3298534884130_1_alg».proof.Proof.Gen.KernelIdeal.Frame
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

theorem lt512 (t : Fin cfg1.N) : t.val < 512 := lt_of_lt_of_eq t.isLt (show cfg1.N = 512 from N_1)

/-- The batch of point t. -/
def pb (t : ℕ) (h : t < 512) : Fin 4 := ⟨t / 128, by omega⟩
/-- Row r of point t's row tile, as a row of the cloud. -/
def prow (t : ℕ) (h : t < 512) (r : Fin 512) : Fin 8192 := ⟨(t / 8 % 16) * 512 + r.val, by have := r.isLt; omega⟩
/-- Row q of point t's column tile, as a row of the other cloud. -/
def pcol (t : ℕ) (h : t < 512) (q : Fin 1024) : Fin 8192 := ⟨(t % 8) * 1024 + q.val, by have := q.isLt; omega⟩

/-- The three index maps at every point of the grid: batch, then row tile (first and third window) or column
    tile (second window), then 0. -/
theorem idx_facts : ∀ t : Fin cfg1.N,
    (win1_0.index t (0 : Fin 3) = t.val / 128 ∧ win1_0.index t (1 : Fin 3) = t.val / 8 % 16 ∧ win1_0.index t (2 : Fin 3) = 0)
    ∧ (win1_1.index t (0 : Fin 3) = t.val / 128 ∧ win1_1.index t (1 : Fin 3) = t.val % 8 ∧ win1_1.index t (2 : Fin 3) = 0)
    ∧ (win1_2.index t (0 : Fin 3) = t.val / 128 ∧ win1_2.index t (1 : Fin 3) = t.val / 8 % 16 ∧ win1_2.index t (2 : Fin 3) = 0) :=
  (by decide +kernel : ∀ t : Fin grid1.N, _)

/-- The first input block read at (0, r, d). -/
theorem xblk_apply (c : Dev nD) (t : Fin cfg1.N) (r : Fin 512) (d : Fin 3) :
    (iblk1 V c 0 t : Vec F S1x512x3 .f32) (ix3 0 r d)
      = (V c main_arg1 : Vec F S4x8192x3 .f32) (ix3 (pb t.val (lt512 t)) (prow t.val (lt512 t) r) d) := by
  obtain ⟨⟨e0, e1, e2⟩, -, -⟩ := idx_facts t
  unfold iblk1
  rw [View.read_apply]
  show V c main_arg1 (((cfg1.win 0).blk t).view.emb (ix3 0 r d)) = V c main_arg1 _
  congr 1
  funext a
  apply Fin.ext
  match a with
  | ⟨0, _⟩ => show win1_0.index t (0 : Fin 3) * 1 + 1 * 0 = t.val / 128; rw [e0]; omega
  | ⟨1, _⟩ => show win1_0.index t (1 : Fin 3) * 512 + 1 * r.val = (t.val / 8 % 16) * 512 + r.val; rw [e1]; omega
  | ⟨2, _⟩ => show win1_0.index t (2 : Fin 3) * 3 + 1 * d.val = d.val; rw [e2]; omega

/-- The second input block read at (0, q, d). -/
theorem yblk_apply (c : Dev nD) (t : Fin cfg1.N) (q : Fin 1024) (d : Fin 3) :
    (iblk1 V c 1 t : Vec F S1x1024x3 .f32) (ix3 0 q d)
      = (V c main_arg0 : Vec F S4x8192x3 .f32) (ix3 (pb t.val (lt512 t)) (pcol t.val (lt512 t) q) d) := by
  obtain ⟨-, ⟨e0, e1, e2⟩, -⟩ := idx_facts t
  unfold iblk1
  rw [View.read_apply]
  show V c main_arg0 (((cfg1.win 1).blk t).view.emb (ix3 0 q d)) = V c main_arg0 _
  congr 1
  funext a
  apply Fin.ext
  match a with
  | ⟨0, _⟩ => show win1_1.index t (0 : Fin 3) * 1 + 1 * 0 = t.val / 128; rw [e0]; omega
  | ⟨1, _⟩ => show win1_1.index t (1 : Fin 3) * 1024 + 1 * q.val = (t.val % 8) * 1024 + q.val; rw [e1]; omega
  | ⟨2, _⟩ => show win1_1.index t (2 : Fin 3) * 3 + 1 * d.val = d.val; rw [e2]; omega

/-- The output block of point t of any array over the result's shape, read at (0, r, 0). -/
theorem oblk_read (c : Dev nD) (t : Fin cfg1.N) (G : Vec F S4x8192x1 .f32) (r : Fin 512) :
    (((cfg1.win 2).blk t).view.read (Elt F) G : Vec F S1x512x1 .f32) (ix3 0 r 0)
      = G (ix3 (pb t.val (lt512 t)) (prow t.val (lt512 t) r) 0) := by
  obtain ⟨-, -, e0, e1, e2⟩ := idx_facts t
  rw [View.read_apply]
  show G (((cfg1.win 2).blk t).view.emb (ix3 0 r 0)) = G _
  congr 1
  funext a
  apply Fin.ext
  match a with
  | ⟨0, _⟩ => show win1_2.index t (0 : Fin 3) * 1 + 1 * 0 = t.val / 128; rw [e0]; omega
  | ⟨1, _⟩ => show win1_2.index t (1 : Fin 3) * 512 + 1 * r.val = (t.val / 8 % 16) * 512 + r.val; rw [e1]; omega
  | ⟨2, _⟩ => show win1_2.index t (2 : Fin 3) * 1 + 1 * 0 = 0; rw [e2]

/-- Entry (b, n, 0) of the result lies in the block of point (16 b + n / 512) · 8 + 7, the last of a run of eight. -/
theorem cover_idx (i : S4x8192x1.Idx) :
    ∃ t : Fin cfg1.N, (cfg1.win 2).flush t = true ∧ i ∈ ((cfg1.win 2).blk t).view.set := by
  have h0 : (i 0).val < 4 := (i 0).isLt
  have h1 : (i 1).val < 8192 := (i 1).isLt
  have h2 : (i 2).val < 1 := (i 2).isLt
  obtain ⟨n, hn⟩ : ∃ n : ℕ, n = ((i 0).val * 16 + (i 1).val / 512) * 8 + 7 := ⟨_, rfl⟩
  have hN : n < cfg1.N := by rw [show cfg1.N = 512 from N_1]; omega
  obtain ⟨-, -, e0, e1, e2⟩ := idx_facts ⟨n, hN⟩
  have f0 : win1_2.index ⟨n, hN⟩ (0 : Fin 3) = n / 128 := e0
  have f1 : win1_2.index ⟨n, hN⟩ (1 : Fin 3) = n / 8 % 16 := e1
  have f2 : win1_2.index ⟨n, hN⟩ (2 : Fin 3) = 0 := e2
  refine ⟨⟨n, hN⟩, (flush1_2 ⟨n, hN⟩).mpr (by show n % 8 = 7; omega), ?_⟩
  show i ∈ ((View.whole main_v1).slice (win1_2.rect ⟨n, hN⟩)).set
  rw [View.set_slice_whole, Rect.mem_set_unit]
  intro a
  match a with
  | ⟨0, _⟩ =>
    show win1_2.index ⟨n, hN⟩ (0 : Fin 3) * 1 ≤ (i 0).val ∧ (i 0).val < win1_2.index ⟨n, hN⟩ (0 : Fin 3) * 1 + 1
    rw [f0]; omega
  | ⟨1, _⟩ =>
    show win1_2.index ⟨n, hN⟩ (1 : Fin 3) * 512 ≤ (i 1).val ∧ (i 1).val < win1_2.index ⟨n, hN⟩ (1 : Fin 3) * 512 + 512
    rw [f1]; omega
  | ⟨2, _⟩ =>
    show win1_2.index ⟨n, hN⟩ (2 : Fin 3) * 1 ≤ (i 2).val ∧ (i 2).val < win1_2.index ⟨n, hN⟩ (2 : Fin 3) * 1 + 1
    rw [f2]; omega

/-- Every entry of the result lies in the block of a point that writes back. -/
theorem cover (c : Dev nD) (i : ((cfg1.win 2).arr.view.loc (c.tc : Thread nD τ)).2.ty.Idx) :
    ∃ t : Fin cfg1.N, (cfg1.win 2).flush t = true ∧ i ∈ ((cfg1.win 2).blk t).view.set :=
  cover_idx i

end Cert.KernelIdeal.Region1

end
-- ==== Proof.Final1.lean ====
/-
  The second launch's result column is the nearest-neighbour column.

  Along a run of eight consecutive grid points the batch and the row tile stay fixed and the column tile goes 0, 1, …, 7.
  The output block is reset to ⊤ at the run's first point and at every point is met, row by row, with the infimum of the
  clamped distances from that row's point to the 1024 points of the current column tile. So after the point with column
  tile k the block holds, at row r, the infimum over the first (k + 1)·1024 points of the columns' cloud (by induction
  along the run, one tile at a time); after the eighth point that is the infimum over all 8192, the block is written
  back, and the 64 written blocks tile the column.
-/
import proofs.«152328_j3298534884130_1_alg».proof.Proof.Gen.KernelIdeal.Frame
import proofs.«152328_j3298534884130_1_alg».proof.Proof.Spec
import proofs.«152328_j3298534884130_1_alg».proof.Proof.Payload
import proofs.«152328_j3298534884130_1_alg».proof.Proof.Pieces1
import proofs.«152328_j3298534884130_1_alg».proof.Proof.Blocks1
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two clouds as the launch finds them: the rows' cloud first, the columns' cloud second. -/
abbrev rowCloud (c : Dev nD) : Cert.Spec.Pts.Idx → EReal := V c main_arg1
abbrev colCloud (c : Dev nD) : Cert.Spec.Pts.Idx → EReal := V c main_arg0

/-- The clamped distances from one point of the rows' cloud, as a function of the other cloud's index. -/
def fromRow (c : Dev nD) (b : Fin 4) (n : Fin 8192) : Fin 8192 → EReal :=
  fun k => Cert.Spec.dist (rowCloud V c) (colCloud V c) b n k

theorem lt8 (t : ℕ) : t % 8 < 8 := Nat.mod_lt _ (by decide)

/-- The tile step with the tile's number a natural number. -/
theorem below_succ (f : Fin 8192 → EReal) (j : ℕ) (hj : j < 8) :
    Cert.Spec.below f ((j + 1) * 1024)
      = Cert.Spec.below f (j * 1024) ⊓ (Finset.univ : Finset (Fin 1024)).inf fun q => f (Cert.Spec.tile ⟨j, hj⟩ q) :=
  Cert.Spec.below_step f ⟨j, hj⟩

/-- A point's tile infimum of block distances is the infimum of the clouds' distances over its column tile. -/
theorem tile_inf (c : Dev nD) (t : Fin cfg1.N) (r : Fin 512) :
    ((Finset.univ : Finset (Fin 1024)).inf fun q => Cert.KernelIdeal.Pay.tdist (iblk1 V c 0 t) (iblk1 V c 1 t) r q)
      = (Finset.univ : Finset (Fin 1024)).inf fun q =>
          fromRow V c (pb t.val (lt512 t)) (prow t.val (lt512 t) r) (Cert.Spec.tile ⟨t.val % 8, lt8 t.val⟩ q) := by
  refine congrArg _ (funext fun q => ?_)
  unfold Cert.KernelIdeal.Pay.tdist fromRow Cert.Spec.dist Cert.Spec.sqn Cert.Spec.dot3
  simp only [xblk_apply V c t, yblk_apply V c t]
  rfl

/-- After a run's first point. -/
theorem at_first (c : Dev nD) (t : Fin cfg1.N) (h0 : t.val % 8 = 0) (r : Fin 512) :
    (outsAt1 V c t.val t.isLt : Vec Ideal S1x512x1 .f32) (ix3 0 r 0)
      = Cert.Spec.below (fromRow V c (pb t.val (lt512 t)) (prow t.val (lt512 t) r)) ((t.val % 8 + 1) * 1024) := by
  rw [outsAt1_A V c t h0]
  refine (congrFun (out_first (F := Ideal) c (grid1.coords t) (ms1_0 t) (hs1_0 t) (ms1_1 t) (hs1_1 t) (ms1_2 t) (hs1_2 t)
    ((hcond1_0 t).mpr h0) (iblk1 V c 0 t) (iblk1 V c 1 t)) (ix3 0 r 0)).trans ?_
  refine (Cert.KernelIdeal.Pay.update_apply (iblk1 V c 0 t) (iblk1 V c 1 t) (k0_pay1 (F := Ideal)) r).trans ?_
  rw [Cert.KernelIdeal.Pay.reset_apply r, tile_inf V c t r, below_succ _ (t.val % 8) (lt8 t.val),
    show t.val % 8 * 1024 = 0 from by omega, Cert.Spec.below_zero]

/-- Within a run the batch and the row tile do not move. -/
theorem pb_pred (t : ℕ) (h : t < 512) (h0 : ¬t % 8 = 0) : pb (t - 1) (by omega) = pb t h :=
  Fin.ext (by show (t - 1) / 128 = t / 128; omega)
theorem prow_pred (t : ℕ) (h : t < 512) (h0 : ¬t % 8 = 0) (r : Fin 512) : prow (t - 1) (by omega) r = prow t h r :=
  Fin.ext (by show (t - 1) / 8 % 16 * 512 + r.val = t / 8 % 16 * 512 + r.val; omega)

/-- After a later point of a run, from what the point before left. -/
theorem at_later (c : Dev nD) (t : Fin cfg1.N) (h0 : ¬t.val % 8 = 0) (r : Fin 512)
    (ih : (outsAt1 V c (t.val - 1) (Nat.lt_of_le_of_lt (Nat.sub_le _ _) t.isLt) : Vec Ideal S1x512x1 .f32) (ix3 0 r 0)
      = Cert.Spec.below (fromRow V c (pb (t.val - 1) (by have := lt512 t; omega)) (prow (t.val - 1) (by have := lt512 t; omega) r))
          (((t.val - 1) % 8 + 1) * 1024)) :
    (outsAt1 V c t.val t.isLt : Vec Ideal S1x512x1 .f32) (ix3 0 r 0)
      = Cert.Spec.below (fromRow V c (pb t.val (lt512 t)) (prow t.val (lt512 t) r)) ((t.val % 8 + 1) * 1024) := by
  rw [outsAt1_B V c t h0]
  refine (congrFun (out_later (F := Ideal) c (grid1.coords t) (ms1_0 t) (hs1_0 t) (ms1_1 t) (hs1_1 t) (ms1_2 t) (hs1_2 t)
    (fun h => h0 ((hcond1_0 t).mp h)) (iblk1 V c 0 t) (iblk1 V c 1 t)
    (outsAt1 V c (t.val - 1) (Nat.lt_of_le_of_lt (Nat.sub_le _ _) t.isLt))) (ix3 0 r 0)).trans ?_
  refine (Cert.KernelIdeal.Pay.update_apply (iblk1 V c 0 t) (iblk1 V c 1 t)
    (outsAt1 V c (t.val - 1) (Nat.lt_of_le_of_lt (Nat.sub_le _ _) t.isLt)) r).trans ?_
  rw [ih, tile_inf V c t r, below_succ _ (t.val % 8) (lt8 t.val), pb_pred t.val (lt512 t) h0, prow_pred t.val (lt512 t) h0 r,
    show ((t.val - 1) % 8 + 1) * 1024 = t.val % 8 * 1024 from by omega]

/-- What the output block holds after point n, row by row: the infimum over the column tiles seen so far in the run. -/
theorem outsAt_apply (c : Dev nD) : ∀ (n : ℕ) (hn : n < cfg1.N) (r : Fin 512),
    (outsAt1 V c n hn : Vec Ideal S1x512x1 .f32) (ix3 0 r 0)
      = Cert.Spec.below (fromRow V c (pb n (lt512 ⟨n, hn⟩)) (prow n (lt512 ⟨n, hn⟩) r)) ((n % 8 + 1) * 1024)
  | 0, hn, r => at_first V c ⟨0, hn⟩ rfl r
  | n + 1, hn, r => by
    by_cases h0 : (n + 1) % 8 = 0
    · exact at_first V c ⟨n + 1, hn⟩ h0 r
    · exact at_later V c ⟨n + 1, hn⟩ h0 r (outsAt_apply c n (Nat.lt_of_succ_lt hn) r)

/-- The block written back at the end of a run is the nearest-neighbour column's block. -/
theorem flushed_eq (c : Dev nD) (t : Fin cfg1.N) (hf : (cfg1.win 2).flush t = true) :
    (dat1 V c).flushed 2 t
      = ((cfg1.win 2).blk t).view.read (Elt Ideal) (Cert.Spec.nearestCol (rowCloud V c) (colCloud V c)) := by
  have h7 : t.val % 8 = 7 := (flush1_2 t).mp hf
  show (cfg1.win 2).cut (grid1.coords t) ((dat1 V c).after 2 t) = _
  rw [after1_2]
  funext y
  have hy : y = (ix3 0 (y 1) 0 : S1x512x1.Idx) := by
    funext a
    match a with
    | ⟨0, _⟩ => exact Fin.ext (by have h : (y 0).val < 1 := (y 0).isLt; show (y 0).val = 0; omega)
    | ⟨1, _⟩ => rfl
    | ⟨2, _⟩ => exact Fin.ext (by have h : (y 2).val < 1 := (y 2).isLt; show (y 2).val = 0; omega)
  rw [hy]
  refine (outsAt_apply V c t.val t.isLt (y 1)).trans ?_
  rw [oblk_read c t _ (y 1), show (t.val % 8 + 1) * 1024 = 8192 from by omega, Cert.Spec.below_all]
  rfl

/-- So the launch's result column ends holding the nearest-neighbour column of its two clouds. -/
theorem final (c : Dev nD) :
    (dat1 V c).arrAt 2 cfg1.N = Cert.Spec.nearestCol (rowCloud V c) (colCloud V c) :=
  (dat1 V c).arrAt_eq_of_cover 2 _ (flushed_eq V c) (cover c)

end Cert.KernelIdeal.Region1

end
-- ==== Proof.KernelValue.lean ====
/-
  The kernel program's three results are the specification's.

  The first launch leaves in its result column the nearest-neighbour column of the first cloud against the second; the
  second launch finds both clouds as they were launched (the first launch writes neither) and leaves the nearest-neighbour
  column of the second cloud against the first. The host operations after them sum each column over [4, 8192, 1] — the
  sum over [4, 8192] of the per-point infima —, take the two means, add, clamp, and weigh with the mean absolute density.
-/
import proofs.«152328_j3298534884130_1_alg».proof.Proof.KernelTail
import proofs.«152328_j3298534884130_1_alg».proof.Proof.Final0
import proofs.«152328_j3298534884130_1_alg».proof.Proof.Final1

noncomputable section

namespace Cert.KernelIdeal.Value

open Cert.KernelIdeal Cert.KernelIdeal.Gen Idealize.ShloMosaic Idealize.ShloMosaic.TcCoe Idealize.SL.Sem
open Idealize.ShloMosaic.ValueIdx

/-! ## The host tail at the extended reals -/

/-- The mean of a column, at its one index: the column's total over the count. -/
theorem colMean_apply (A : (⟨S4x8192x1, .f32⟩ : BufTy).Contents (Elt Ideal)) (i : S_.Idx) :
    Cert.KernelIdeal.Tail.colMean (F := Ideal) A i = Ideal.div (Cert.Spec.zero + ∑ j : S4x8192x1.Idx, A j) Cert.Spec.count := by
  unfold Cert.KernelIdeal.Tail.colMean
  simp only [Host.divf, Host.reduceAdd, Ideal.hostReduceAdd_def, Ideal.hostDivf_def]
  rw [Ideal.hostReduceAdd_total reducesTo_S4x8192x1_S_d0_1_2 (fun b => b.elim0)]
  rfl

/-- The nearest-neighbour column's mean. -/
theorem colMean_nearest (x y : Cert.Spec.Pts.Idx → EReal) (i : S_.Idx) :
    Cert.KernelIdeal.Tail.colMean (F := Ideal) (Cert.Spec.nearestCol x y) i
      = Ideal.div (Cert.Spec.zero + Cert.Spec.total x y) Cert.Spec.count := by
  rw [colMean_apply]
  unfold Cert.Spec.total Cert.Spec.nearestCol
  rw [Cert.Spec.sum_col (fun b n => Cert.Spec.nearest x y b n)]

/-- The mean absolute density. -/
theorem meanAbs_apply (d : (⟨S4x8192, .f32⟩ : BufTy).Contents (Elt Ideal)) (i : S_.Idx) :
    Cert.KernelIdeal.Tail.meanAbs (F := Ideal) d i = Cert.Spec.density d := by
  unfold Cert.KernelIdeal.Tail.meanAbs Cert.Spec.density
  simp only [Host.divf, Host.reduceAdd, Host.absf, Ideal.hostReduceAdd_def, Ideal.hostDivf_def, Ideal.hostAbsf_def, Ideal.absf_def]
  rw [Ideal.hostReduceAdd_total reducesTo_S4x8192_S_d0_1 (fun b => b.elim0)]
  rfl

/-- The clamp of the two means' sum is the specification's chamfer term. -/
theorem clamp_means (x y : Cert.Spec.Pts.Idx → EReal) :
    Cert.KernelIdeal.Tail.clamp (F := Ideal)
      (addf (F := Ideal) (s := S_) (φ := .f32) (Cert.KernelIdeal.Tail.colMean (F := Ideal) (Cert.Spec.nearestCol x y))
        (Cert.KernelIdeal.Tail.colMean (F := Ideal) (Cert.Spec.nearestCol y x)))
      = fun _ => Cert.Spec.chamfer x y := by
  funext i
  unfold Cert.KernelIdeal.Tail.clamp Cert.Spec.chamfer
  simp only [minimumf, maximumf, addf, id, Ideal.minimumf_def, Ideal.maximumf_def, Ideal.addf_def, colMean_nearest]
  rfl

/-- The weighted sum. -/
theorem weigh_apply (ch de : EReal) :
    Cert.KernelIdeal.Tail.weigh (F := Ideal) (fun _ => ch) (fun _ => de) = fun _ => Cert.Spec.one * ch + Cert.Spec.tenth * de := by
  funext i
  unfold Cert.KernelIdeal.Tail.weigh
  simp only [addf, mulf, Ideal.addf_def, Ideal.mulf_def]
  rfl

/-! ## The two launches' columns in the run -/

section Run
variable (m : (ℓ : Loc nD τ sig) → Buf (Elt Ideal) ℓ) (ρ : Dev nD → PrngReg)

/-- The clouds and the densities as launched. -/
abbrev xs (c : Dev nD) : Cert.Spec.Pts.Idx → EReal := m ((c : Thread nD τ).loc main_arg0)
abbrev ys (c : Dev nD) : Cert.Spec.Pts.Idx → EReal := m ((c : Thread nD τ).loc main_arg1)
abbrev ds (c : Dev nD) : Cert.Spec.Rows.Idx → EReal := m ((c : Thread nD τ).loc main_arg2)

/-- The second launch finds both clouds as launched. -/
theorem entry1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem entry1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-- The first launch's column after both launches. -/
theorem col0 (c : Dev nD) : W2 m ρ c (Proc.devRef .tc main_v0) = Cert.Spec.nearestCol (xs m c) (ys m c) :=
  (W2_of_ne m ρ c main_v0 (by decide)).trans ((W1_arr m ρ c 2).trans (Cert.KernelIdeal.Region0.final (V0 m ρ) c))

/-- The second launch's column. -/
theorem col1 (c : Dev nD) : W2 m ρ c (Proc.devRef .tc main_v1) = Cert.Spec.nearestCol (ys m c) (xs m c) := by
  refine (W2_arr m ρ c 2).trans ((Cert.KernelIdeal.Region1.final (V1 m ρ) c).trans ?_)
  show Cert.Spec.nearestCol (V1 m ρ c main_arg1) (V1 m ρ c main_arg0) = _
  rw [entry1_arg1, entry1_arg0]

/-- The three results at the last boundary. -/
theorem chamfer_result (c : Dev nD) :
    W5 m ρ c (Proc.devRef .tc main_v7) = fun _ => Cert.Spec.chamfer (xs m c) (ys m c) := by
  rw [Cert.KernelIdeal.Tail.chamfer_stage, Cert.KernelIdeal.Tail.clamp_stage, Cert.KernelIdeal.Tail.sum_stage, col0, col1]
  exact clamp_means _ _

theorem density_result (c : Dev nD) :
    W5 m ρ c (Proc.devRef .tc main_v10) = fun _ => Cert.Spec.density (ds m c) := by
  rw [Cert.KernelIdeal.Tail.density_stage, Cert.KernelIdeal.Tail.dens_stage]
  exact funext fun i => meanAbs_apply _ i

theorem loss_result (c : Dev nD) :
    W5 m ρ c (Proc.devRef .tc main_v13) = fun _ => Cert.Spec.loss (xs m c) (ys m c) (ds m c) := by
  rw [Cert.KernelIdeal.Tail.loss_stage, ← Cert.KernelIdeal.Tail.chamfer_stage, chamfer_result, Cert.KernelIdeal.Tail.dens_stage,
    show Cert.KernelIdeal.Tail.meanAbs (F := Ideal) (m ((c : Thread nD τ).loc main_arg2)) = fun _ => Cert.Spec.density (ds m c)
      from funext fun i => meanAbs_apply _ i]
  exact weigh_apply _ _

end Run

end Cert.KernelIdeal.Value

end
-- ==== Proof.RefValue.lean ====
/-
  The reference's three results are the specification's.

  The reference forms the whole 4×8192×8192 array of clamped squared distances once and takes its minimum along each of
  its two point axes: along the second cloud's axis that is, row by row, the nearest-neighbour infimum of the first cloud
  against the second; along the first cloud's axis it is, by the symmetry of the distance, that of the second against
  the first. The sums, means, clamp and weights are then the specification's word for word.
-/
import proofs.«152328_j3298534884130_1_alg».proof.Proof.Gen.ReferenceIdeal.Read
import proofs.«152328_j3298534884130_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The index functions composed are the coordinates rearranged -/

private theorem idx_sq0 (b : Fin 4) (n m : Fin 8192) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

private theorem idx_sq1 (b : Fin 4) (n m : Fin 8192) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

private theorem idx_dotl (b : Fin 4) (n m : Fin 8192) (k : Fin 3) :
    lidx_main_v4 (ix3 b n m) k = ix3 b n k :=
  funext fun a => Fin.ext (by match a with | ⟨0, _⟩ => rfl | ⟨1, _⟩ => rfl | ⟨2, _⟩ => rfl)

private theorem idx_dotr (b : Fin 4) (n m : Fin 8192) (k : Fin 3) :
    ridx_main_v4 (ix3 b n m) k = ix3 b m k :=
  funext fun a => Fin.ext (by match a with | ⟨0, _⟩ => rfl | ⟨1, _⟩ => rfl | ⟨2, _⟩ => rfl)

/-- The clamped distance array at (b, n, m). -/
theorem clamped_apply (x0 x1 : (⟨S4x8192x3, .f32⟩ : BufTy).Contents (Elt Ideal)) (b : Fin 4) (n m : Fin 8192) :
    val_main_v14 (F := Ideal) x0 x1 (ix3 b n m) = Cert.Spec.dist x0 x1 b n m := by
  rw [val_main_v14_apply, val_main_v12_apply, val_main_v9_apply, val_main_v11_apply, val_main_v13_apply,
    val_main_cst_2_apply, val_main_v10_apply, val_main_cst_1_apply, val_main_v4_apply, val_main_v7_apply,
    val_main_v5_apply, val_main_v1_apply, val_main_v8_apply, val_main_v6_apply, val_main_v3_apply,
    val_main_cst_apply, val_main_cst_0_apply]
  simp only [idx_sq0, idx_sq1, idx_dotl, idx_dotr, val_main_v0_apply, val_main_v2_apply]
  unfold Cert.Spec.dist Cert.Spec.sqn Cert.Spec.dot3
  simp only [Ideal.maximumf_def, Ideal.subf_def, Ideal.addf_def, Ideal.mulf_def, Ideal.ofBits_def, Ideal.ofBits_zero_f32,
    zero_add]

/-! ## The two minimum reductions -/

/-- A fold of `min` from ⊤ is the infimum. -/
private theorem fold_min_top (f : Fin 8192 → EReal) :
    (Finset.univ : Finset (Fin 8192)).fold (FloatOps.minimumf (F := Ideal) (φ := .f32)) (⊤ : EReal) f
      = (Finset.univ : Finset (Fin 8192)).inf f := by
  rfl

private theorem red2 : S4x8192x8192.Reduces [2] S4x8192 := by decide
private theorem red1 : S4x8192x8192.Reduces [1] S4x8192 := by decide

private theorem lift2 (b : Fin 4) (n m : Fin 8192) : red2.lift (ix2 b n) m = ix3 b n m :=
  funext fun a => Fin.ext (by match a with | ⟨0, _⟩ => rfl | ⟨1, _⟩ => rfl | ⟨2, _⟩ => rfl)

private theorem lift1 (b : Fin 4) (n m : Fin 8192) : red1.lift (ix2 b m) n = ix3 b n m :=
  funext fun a => Fin.ext (by match a with | ⟨0, _⟩ => rfl | ⟨1, _⟩ => rfl | ⟨2, _⟩ => rfl)

/-- Its minimum along the last axis at (b, n). -/
theorem rowmin_apply (x0 x1 : (⟨S4x8192x3, .f32⟩ : BufTy).Contents (Elt Ideal)) (b : Fin 4) (n : Fin 8192) :
    val_main_v15 (F := Ideal) x0 x1 (ix2 b n) = Cert.Spec.nearest x0 x1 b n := by
  unfold val_main_v15
  rw [Host.reduce_eq_fold_single (FloatOps.minimumf (F := Ideal) (φ := .f32)) _ _ reducesTo_S4x8192x8192_S4x8192_d2 red2 h_S_ (ix2 b n)]
  rw [val_main_cst_3_apply, Ideal.ofBits_def, Cert.Spec.inf_word]
  have hf : (val_main_v14 (F := Ideal) x0 x1 ∘ red2.lift (ix2 b n)) = fun m : Fin 8192 => Cert.Spec.dist x0 x1 b n m :=
    funext fun m => (congrArg (val_main_v14 (F := Ideal) x0 x1) (lift2 b n m)).trans (clamped_apply x0 x1 b n m)
  rw [hf]
  exact fold_min_top _

/-- Its minimum along the middle axis at (b, m). -/
theorem colmin_apply (x0 x1 : (⟨S4x8192x3, .f32⟩ : BufTy).Contents (Elt Ideal)) (b : Fin 4) (m : Fin 8192) :
    val_main_v18 (F := Ideal) x0 x1 (ix2 b m) = Cert.Spec.nearest x1 x0 b m := by
  unfold val_main_v18
  rw [Host.reduce_eq_fold_single (FloatOps.minimumf (F := Ideal) (φ := .f32)) _ _ reducesTo_S4x8192x8192_S4x8192_d1 red1 h_S_ (ix2 b m)]
  rw [val_main_cst_6_apply, Ideal.ofBits_def, Cert.Spec.inf_word]
  have hf : (val_main_v14 (F := Ideal) x0 x1 ∘ red1.lift (ix2 b m)) = fun n : Fin 8192 => Cert.Spec.dist x1 x0 b m n :=
    funext fun n => ((congrArg (val_main_v14 (F := Ideal) x0 x1) (lift1 b n m)).trans (clamped_apply x0 x1 b n m)).trans
      (Cert.Spec.dist_swap x0 x1 b n m)
  rw [hf]
  exact fold_min_top _

/-! ## The three results -/

private theorem sum_rowmin (x0 x1 : (⟨S4x8192x3, .f32⟩ : BufTy).Contents (Elt Ideal)) :
    ∑ j : S4x8192.Idx, val_main_v15 (F := Ideal) x0 x1 j = Cert.Spec.total x0 x1 :=
  Finset.sum_congr rfl fun j _ =>
    (congrArg (val_main_v15 (F := Ideal) x0 x1) (eq_ix2 j)).trans (rowmin_apply x0 x1 (j 0) (j 1))

private theorem sum_colmin (x0 x1 : (⟨S4x8192x3, .f32⟩ : BufTy).Contents (Elt Ideal)) :
    ∑ j : S4x8192.Idx, val_main_v18 (F := Ideal) x0 x1 j = Cert.Spec.total x1 x0 :=
  Finset.sum_congr rfl fun j _ =>
    (congrArg (val_main_v18 (F := Ideal) x0 x1) (eq_ix2 j)).trans (colmin_apply x0 x1 (j 0) (j 1))

theorem chamfer_eq (x0 x1 : (⟨S4x8192x3, .f32⟩ : BufTy).Contents (Elt Ideal)) :
    val_main_v22 (F := Ideal) x0 x1 = fun _ => Cert.Spec.chamfer x0 x1 := by
  funext i
  rw [val_main_v22_apply, val_main_call0_v2_apply, val_main_cst_10_apply, val_main_call0_v1_apply,
    val_main_call0_v0_apply, val_main_cst_9_apply, val_main_v21_apply, val_main_v17_apply, val_main_v20_apply,
    val_main_v16_apply, val_main_v19_apply, val_main_cst_5_apply, val_main_cst_8_apply, val_main_cst_4_apply,
    val_main_cst_7_apply, sum_rowmin, sum_colmin]
  rfl

theorem density_eq (x2 : (⟨S4x8192, .f32⟩ : BufTy).Contents (Elt Ideal)) :
    val_main_v25 (F := Ideal) x2 = fun _ => Cert.Spec.density x2 := by
  funext i
  rw [val_main_v25_apply, val_main_v24_apply, val_main_cst_12_apply, val_main_cst_11_apply]
  rfl

theorem loss_eq (x0 x1 : (⟨S4x8192x3, .f32⟩ : BufTy).Contents (Elt Ideal)) (x2 : (⟨S4x8192, .f32⟩ : BufTy).Contents (Elt Ideal)) :
    val_main_v28 (F := Ideal) x0 x1 x2 = fun _ => Cert.Spec.loss x0 x1 x2 := by
  funext i
  rw [val_main_v28_apply, val_main_v26_apply, val_main_v27_apply, val_main_cst_13_apply, val_main_cst_14_apply,
    chamfer_eq, density_eq]
  rfl

end Cert.ReferenceIdeal.RefValue

end
-- ==== Proof.lean ====
/-
  The chamfer loss of two point clouds with an L1 density term: a tiled Pallas kernel against its jnp reference.

  Both programs compute, over the extended reals, for clouds x and y of 8192 points in dimension 3 in 4 batches,
  d(n, m) = max(|x_n|² + |y_m|² − 2⟨x_n, y_m⟩, 0), the mean over n of the infimum over m, the mean over m of the infimum
  over n, their sum clamped into [0, 10⁶], and that plus a tenth of the mean absolute density.

  The reference forms the whole array d once and reduces it along either point axis. The kernel program launches one
  row-minimum kernel twice, the second time with the clouds exchanged: each launch walks 8 column tiles of 1024 points
  per 512-row block, starting the block at ⊤ and meeting it with each tile's row minima. The two agree because an infimum
  over 8192 indices is the tiles' infima met in order, because d is symmetric under exchanging the clouds with the
  indices (addition and multiplication commute), and because a sum over [4, 8192, 1] is the sum over [4, 8192]. No
  cancellation or distributivity is used, so the inputs' finiteness is never needed.

  The three frames are the generated ones (the reference's is its generated run with the results dropped); the ideal
  pass rewrote nothing, so the idealization claim is trivial.
-/
import proofs.«152328_j3298534884130_1_alg».proof.Defs
import proofs.«152328_j3298534884130_1_alg».proof.Proof.Gen.Kernel
import proofs.«152328_j3298534884130_1_alg».proof.Proof.Gen.Kernel.Skeleton
import proofs.«152328_j3298534884130_1_alg».proof.Proof.Gen.Kernel.Launch
import proofs.«152328_j3298534884130_1_alg».proof.Proof.Gen.Kernel.Points
import proofs.«152328_j3298534884130_1_alg».proof.Proof.Gen.Kernel.Frame
import proofs.«152328_j3298534884130_1_alg».proof.Proof.Gen.KernelIdeal
import proofs.«152328_j3298534884130_1_alg».proof.Proof.Gen.KernelIdeal.Skeleton
import proofs.«152328_j3298534884130_1_alg».proof.Proof.Gen.KernelIdeal.Launch
import proofs.«152328_j3298534884130_1_alg».proof.Proof.Gen.KernelIdeal.Points
import proofs.«152328_j3298534884130_1_alg».proof.Proof.Gen.KernelIdeal.Frame
import proofs.«152328_j3298534884130_1_alg».proof.Proof.Gen.ReferenceIdeal
import proofs.«152328_j3298534884130_1_alg».proof.Proof.Gen.ReferenceIdeal.Run
import proofs.«152328_j3298534884130_1_alg».proof.Proof.Gen.ReferenceIdeal.Read
import proofs.«152328_j3298534884130_1_alg».proof.Proof.Gen.Pre_finite_inputs
import proofs.«152328_j3298534884130_1_alg».proof.Proof.KernelRun
import proofs.«152328_j3298534884130_1_alg».proof.Proof.KernelValue
import proofs.«152328_j3298534884130_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the specification's loss, chamfer term and density term of the launched arguments. -/
theorem algebraic : Cert.algebraic_KernelIdeal_ReferenceIdeal := by
  intro m ρ m' ρ' _ hagree
  refine ⟨fun c _ => Cert.Spec.loss (Cert.KernelIdeal.Value.xs m c) (Cert.KernelIdeal.Value.ys m c) (Cert.KernelIdeal.Value.ds m c),
    fun c _ => Cert.Spec.chamfer (Cert.KernelIdeal.Value.xs m c) (Cert.KernelIdeal.Value.ys m c),
    fun c _ => Cert.Spec.density (Cert.KernelIdeal.Value.ds m c), ?_, ?_⟩
  · refine (θ_run Cert.KernelIdeal.defs _ _).mono (fun r h c => ?_) (Cert.KernelIdeal.Gen.run_results (F := Ideal) m ρ)
    obtain ⟨h13, h7, h10, ha0, ha1, ha2⟩ := h c
    exact ⟨h13.trans (Cert.KernelIdeal.Value.loss_result m ρ c), h7.trans (Cert.KernelIdeal.Value.chamfer_result m ρ c),
      h10.trans (Cert.KernelIdeal.Value.density_result m ρ c), ha0, ha1, ha2⟩
  · refine (θ_run Cert.ReferenceIdeal.defs _ _).mono (fun r h c => ?_) (Cert.ReferenceIdeal.Value.run (F := Ideal) m' ρ')
    obtain ⟨h28, h22, h25, ha0, ha1, ha2⟩ := h c
    refine ⟨h28.trans ?_, h22.trans ?_, h25.trans ?_, ha0, ha1, ha2⟩
    · refine (Cert.ReferenceIdeal.Read.val_main_v28_eq _ _ _).trans ((Cert.ReferenceIdeal.RefValue.loss_eq _ _ _).trans ?_)
      rw [(hagree c).1, (hagree c).2.1, (hagree c).2.2]
      rfl
    · refine (Cert.ReferenceIdeal.Read.val_main_v22_eq _ _).trans ((Cert.ReferenceIdeal.RefValue.chamfer_eq _ _).trans ?_)
      rw [(hagree c).1, (hagree c).2.1]
      rfl
    · refine (Cert.ReferenceIdeal.Read.val_main_v25_eq _).trans ((Cert.ReferenceIdeal.RefValue.density_eq _).trans ?_)
      rw [(hagree c).2.2]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
